-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩
abbrev S1x64 : Shape := ⟨2, ![1, 64]⟩
abbrev S100000x64 : Shape := ⟨2, ![100000, 64]⟩
abbrev S4000x64 : Shape := ⟨2, ![4000, 64]⟩

abbrev nBuf : Space → Nat
  | .hbm => 62
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S1x64, .f32⟩
  | .hbm, ⟨61, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S128x64, .f32⟩
  | .local _ .vmem, ⟨18, _⟩ => ⟨S128x64, .f32⟩
  | .local _ .vmem, ⟨19, _⟩ => ⟨S1x64, .f32⟩
  | .local _ .vmem, ⟨20, _⟩ => ⟨S4000x64, .f32⟩
  | .local _ .vmem, ⟨21, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v25) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.SageSpec.lean ====
/-
  One mean-aggregation layer of a graph network, as a function of its operands, index by index, on the extended reals.

  For a node p and an output channel q the layer's value is

      ( Σ_k (agg(p, k) · d(p)) · Wl(k, q)  +  Σ_k x(p, k) · Wr(k, q) )  +  b(q),

  where agg is the sum of the neighbours' feature rows, d the reciprocal in-degree (0 for an isolated node), x the
  node's own features, Wl and Wr the two weight matrices and b the bias. The first layer clamps this at 0 from below.
  Both programs compute exactly this expression, in this grouping, so no law of arithmetic beyond the reading of a
  matrix product as a finite sum is needed to join them.
-/
import Idealize.ShloMosaic.PureOps.Ideal.Laws
import Idealize.ShloMosaic.Lib.ValueIdx

noncomputable section

open scoped BigOperators

namespace Cert.Sage

open Idealize.ShloMosaic Idealize.ShloMosaic.ValueIdx

variable {R K C : Nat}

/-- The affine part of a layer at an index: the degree-scaled aggregate through `Wl`, the node's own row through `Wr`,
    then the bias. -/
def affine (agg x : FVec Ideal ⟨2, ![R, K]⟩ .f32) (d : FVec Ideal ⟨1, ![R]⟩ .f32)
    (Wl Wr : FVec Ideal ⟨2, ![K, C]⟩ .f32) (b : FVec Ideal ⟨1, ![C]⟩ .f32) : FVec Ideal ⟨2, ![R, C]⟩ .f32 :=
  fun i => ((∑ k : Fin K, ((agg (ix2 (i 0) k) : EReal) * (d (ix1 (i 0)) : EReal)) * (Wl (ix2 k (i 1)) : EReal))
      + ∑ k : Fin K, (x (ix2 (i 0) k) : EReal) * (Wr (ix2 k (i 1)) : EReal)) + (b (ix1 (i 1)) : EReal)

/-- The first layer: the affine part clamped at zero from below. -/
def affineRelu (agg x : FVec Ideal ⟨2, ![R, K]⟩ .f32) (d : FVec Ideal ⟨1, ![R]⟩ .f32)
    (Wl Wr : FVec Ideal ⟨2, ![K, C]⟩ .f32) (b : FVec Ideal ⟨1, ![C]⟩ .f32) : FVec Ideal ⟨2, ![R, C]⟩ .f32 :=
  fun i => max (affine agg x d Wl Wr b i) (0 : EReal)

theorem affine_apply (agg x : FVec Ideal ⟨2, ![R, K]⟩ .f32) (d : FVec Ideal ⟨1, ![R]⟩ .f32)
    (Wl Wr : FVec Ideal ⟨2, ![K, C]⟩ .f32) (b : FVec Ideal ⟨1, ![C]⟩ .f32) (p : Fin R) (q : Fin C) :
    affine agg x d Wl Wr b (ix2 p q)
      = ((∑ k : Fin K, ((agg (ix2 p k) : EReal) * (d (ix1 p) : EReal)) * (Wl (ix2 k q) : EReal))
          + ∑ k : Fin K, (x (ix2 p k) : EReal) * (Wr (ix2 k q) : EReal)) + (b (ix1 q) : EReal) := rfl

theorem affineRelu_apply (agg x : FVec Ideal ⟨2, ![R, K]⟩ .f32) (d : FVec Ideal ⟨1, ![R]⟩ .f32)
    (Wl Wr : FVec Ideal ⟨2, ![K, C]⟩ .f32) (b : FVec Ideal ⟨1, ![C]⟩ .f32) (p : Fin R) (q : Fin C) :
    affineRelu agg x d Wl Wr b (ix2 p q)
      = max (((∑ k : Fin K, ((agg (ix2 p k) : EReal) * (d (ix1 p) : EReal)) * (Wl (ix2 k q) : EReal))
          + ∑ k : Fin K, (x (ix2 p k) : EReal) * (Wr (ix2 k q) : EReal)) + (b (ix1 q) : EReal)) (0 : EReal) := rfl

end Cert.Sage

end
-- ==== Proof.RefLayers.lean ====
/-
  The reference's two layers are the specification's layer.

  Read one operation at a time, the reference's hidden array is the clamped layer of its own first aggregate, the node
  features, its reciprocal-degree vector and the first weights; and its result is the plain layer of its second aggregate,
  the hidden array, the same reciprocal-degree vector and the second weights. The aggregates and the reciprocal degree
  are left as the reference computes them: only the dense part is opened. Each matrix product is the finite sum over the
  contracted axis, each bias a vector read at the column, the degree a vector read at the row.
-/
import proofs.«122156_j28346784153651_1_alg».proof.Proof.RefReadPatched
import proofs.«122156_j28346784153651_1_alg».proof.Proof.SageSpec

noncomputable section

open scoped BigOperators

namespace Cert.ReferenceIdeal.Layers

open Cert.ReferenceIdeal Cert.ReferenceIdeal.ReadP Idealize.ShloMosaic Idealize.ShloMosaic.ValueIdx Cert.Sage

/-! ## The index maps of the stages, as coordinates -/

theorem lidx28 (p : Fin 100000) (q k : Fin 128) : lidx_main_v28 (ix2 p q) k = ix2 p k :=
  funext fun a => Fin.ext (by match a with | ⟨0, _⟩ => rfl | ⟨1, _⟩ => rfl)
theorem ridx28 (p : Fin 100000) (q k : Fin 128) : ridx_main_v28 (ix2 p q) k = ix2 k q :=
  funext fun a => Fin.ext (by match a with | ⟨0, _⟩ => rfl | ⟨1, _⟩ => rfl)
theorem lidx29 (p : Fin 100000) (q k : Fin 128) : lidx_main_v29 (ix2 p q) k = ix2 p k :=
  funext fun a => Fin.ext (by match a with | ⟨0, _⟩ => rfl | ⟨1, _⟩ => rfl)
theorem ridx29 (p : Fin 100000) (q k : Fin 128) : ridx_main_v29 (ix2 p q) k = ix2 k q :=
  funext fun a => Fin.ext (by match a with | ⟨0, _⟩ => rfl | ⟨1, _⟩ => rfl)
theorem idxDeg1 (p : Fin 100000) (k : Fin 128) : idx_main_v25 (idx_main_v26 (ix2 p k)) = ix1 p :=
  funext fun a => Fin.ext (by match a with | ⟨0, _⟩ => rfl)
theorem idxBias1 (p : Fin 100000) (q : Fin 128) : idx_main_v31 (idx_main_v32 (ix2 p q)) = ix1 q :=
  funext fun a => Fin.ext (by match a with | ⟨0, _⟩ => rfl)

theorem lidx48 (p : Fin 100000) (q : Fin 64) (k : Fin 128) : lidx_main_v48 (ix2 p q) k = ix2 p k :=
  funext fun a => Fin.ext (by match a with | ⟨0, _⟩ => rfl | ⟨1, _⟩ => rfl)
theorem ridx48 (p : Fin 100000) (q : Fin 64) (k : Fin 128) : ridx_main_v48 (ix2 p q) k = ix2 k q :=
  funext fun a => Fin.ext (by match a with | ⟨0, _⟩ => rfl | ⟨1, _⟩ => rfl)
theorem lidx49 (p : Fin 100000) (q : Fin 64) (k : Fin 128) : lidx_main_v49 (ix2 p q) k = ix2 p k :=
  funext fun a => Fin.ext (by match a with | ⟨0, _⟩ => rfl | ⟨1, _⟩ => rfl)
theorem ridx49 (p : Fin 100000) (q : Fin 64) (k : Fin 128) : ridx_main_v49 (ix2 p q) k = ix2 k q :=
  funext fun a => Fin.ext (by match a with | ⟨0, _⟩ => rfl | ⟨1, _⟩ => rfl)
theorem idxDeg2 (p : Fin 100000) (k : Fin 128) : idx_main_v45 (idx_main_v46 (ix2 p k)) = ix1 p :=
  funext fun a => Fin.ext (by match a with | ⟨0, _⟩ => rfl)
theorem idxBias2 (p : Fin 100000) (q : Fin 64) : idx_main_v51 (idx_main_v52 (ix2 p q)) = ix1 q :=
  funext fun a => Fin.ext (by match a with | ⟨0, _⟩ => rfl)

/-! ## The aggregate: one function, applied to the features and then to the hidden array -/

section Aggregate
variable {F : FTy → Type} [FloatOps F]

/-- The sum, into each destination node's row, of the rows of `h` at the edges' source nodes (a negative source index
    counted from the end): the reference's gather along the edge list followed by its scatter-add into zeros. -/
def agg (h : (⟨S100000x128, .f32⟩ : BufTy).Contents (Elt F)) (x1 : (⟨S2x1600000, .i32⟩ : BufTy).Contents (Elt F)) :
    (⟨S100000x128, .f32⟩ : BufTy).Contents (Elt F) :=
  Host.scatterAdd scatter_S100000x128_S1600000x1_S1600000x128_1_0_0_1 (val_main_v22 (F := F)) (val_main_v23 (F := F) x1)
    (Host.gather gather_S100000x128_S1600000x1_S1600000x128_1_0_n_n_0_1_1128 h (val_main_v20 (F := F) x1))

/-- The first aggregate is `agg` of the node features. -/
theorem agg_first (x0 : (⟨S100000x128, .f32⟩ : BufTy).Contents (Elt F)) (x1 : (⟨S2x1600000, .i32⟩ : BufTy).Contents (Elt F)) :
    val_main_v24 (F := F) x0 x1 = agg x0 x1 := rfl

/-- The second gather's index column is the first's: the same operations on the same source vector. -/
theorem srcCol_second (x1 : (⟨S2x1600000, .i32⟩ : BufTy).Contents (Elt F)) : val_main_v40 (F := F) x1 = val_main_v20 (F := F) x1 := rfl
/-- The second scatter's index column is the first's. -/
theorem dstCol_second (x1 : (⟨S2x1600000, .i32⟩ : BufTy).Contents (Elt F)) : val_main_v43 (F := F) x1 = val_main_v23 (F := F) x1 := rfl
/-- Both scatters start from zeros. -/
theorem zeros_second : val_main_v42 (F := F) = val_main_v22 (F := F) := rfl

/-- The second aggregate is `agg` of the hidden array. -/
theorem agg_second (x0 : (⟨S100000x128, .f32⟩ : BufTy).Contents (Elt F)) (x1 : (⟨S2x1600000, .i32⟩ : BufTy).Contents (Elt F))
    (x2 x3 : (⟨S128x128, .f32⟩ : BufTy).Contents (Elt F)) (x4 : (⟨S128, .f32⟩ : BufTy).Contents (Elt F)) :
    val_main_v44 (F := F) x0 x1 x2 x3 x4 = agg (val_main_v34 (F := F) x0 x1 x2 x3 x4) x1 := by
  unfold val_main_v44 val_main_v41 agg
  rw [srcCol_second, dstCol_second, zeros_second]

end Aggregate

/-! ## The two layers -/

/-- The hidden array: the clamped layer of the first aggregate. -/
theorem hidden_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v34 (F := Ideal) x0 x1 x2 x3 x4
      = affineRelu (R := 100000) (K := 128) (C := 128) (val_main_v24 (F := Ideal) x0 x1) x0 (val_main_v14 (F := Ideal) x1) x2 x3 x4 := by
  funext i
  obtain ⟨p, q, rfl⟩ : ∃ (p : Fin 100000) (q : Fin 128), i = ix2 p q := ⟨i 0, i 1, eq_ix2 i⟩
  rw [affineRelu_apply, val_main_v34_apply, val_main_v33_apply, val_main_v30_apply, val_main_v28_apply, val_main_v29_apply,
    val_main_v32_apply, val_main_v31_apply, val_main_call1_v0_apply, val_main_call1_cst_apply]
  have e1 : ∀ k : Fin 128, val_main_v27 (F := Ideal) x0 x1 (lidx_main_v28 (ix2 p q) k) * x2 (ridx_main_v28 (ix2 p q) k)
      = val_main_v24 (F := Ideal) x0 x1 (ix2 p k) * val_main_v14 (F := Ideal) x1 (ix1 p) * x2 (ix2 k q) := fun k => by
    rw [lidx28, ridx28, val_main_v27_apply, val_main_v26_apply, val_main_v25_apply, idxDeg1]; rfl
  have e2 : ∀ k : Fin 128, x0 (lidx_main_v29 (ix2 p q) k) * x3 (ridx_main_v29 (ix2 p q) k) = x0 (ix2 p k) * x3 (ix2 k q) :=
    fun k => by rw [lidx29, ridx29]
  rw [Finset.sum_congr rfl (fun k _ => e1 k), Finset.sum_congr rfl (fun k _ => e2 k), idxBias1,
    Ideal.ofBits_def, Ideal.ofBits_zero_f32]
  rfl

/-- The result: the plain layer of the second aggregate over the hidden array. -/
theorem result_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x64, .f32⟩ : BufTy).Contents (Elt Ideal)) (x7 : (⟨S64, .f32⟩ : BufTy).Contents (Elt Ideal)) :
    val_main_v53 (F := Ideal) x0 x1 x2 x3 x4 x5 x6 x7
      = affine (R := 100000) (K := 128) (C := 64) (val_main_v44 (F := Ideal) x0 x1 x2 x3 x4) (val_main_v34 (F := Ideal) x0 x1 x2 x3 x4)
          (val_main_v14 (F := Ideal) x1) x5 x6 x7 := by
  funext i
  obtain ⟨p, q, rfl⟩ : ∃ (p : Fin 100000) (q : Fin 64), i = ix2 p q := ⟨i 0, i 1, eq_ix2 i⟩
  rw [affine_apply, val_main_v53_apply, val_main_v50_apply, val_main_v48_apply, val_main_v49_apply,
    val_main_v52_apply, val_main_v51_apply]
  have e1 : ∀ k : Fin 128, val_main_v47 (F := Ideal) x0 x1 x2 x3 x4 (lidx_main_v48 (ix2 p q) k) * x5 (ridx_main_v48 (ix2 p q) k)
      = val_main_v44 (F := Ideal) x0 x1 x2 x3 x4 (ix2 p k) * val_main_v14 (F := Ideal) x1 (ix1 p) * x5 (ix2 k q) := fun k => by
    rw [lidx48, ridx48, val_main_v47_apply, val_main_v46_apply, val_main_v45_apply, idxDeg2]; rfl
  have e2 : ∀ k : Fin 128, val_main_v34 (F := Ideal) x0 x1 x2 x3 x4 (lidx_main_v49 (ix2 p q) k) * x6 (ridx_main_v49 (ix2 p q) k)
      = val_main_v34 (F := Ideal) x0 x1 x2 x3 x4 (ix2 p k) * x6 (ix2 k q) :=
    fun k => by rw [lidx49, ridx49]
  rw [Finset.sum_congr rfl (fun k _ => e1 k), Finset.sum_congr rfl (fun k _ => e2 k), idxBias2]
  rfl

/-! ## The reference's result as the two layers composed -/

/-- The hidden array as a function of the arguments: the clamped layer of the aggregate of the node features. -/
def hiddenOf (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    (⟨S100000x128, .f32⟩ : BufTy).Contents (Elt Ideal) :=
  affineRelu (R := 100000) (K := 128) (C := 128) (agg (F := Ideal) x0 x1) x0 (val_main_v14 (F := Ideal) x1) x2 x3 x4

/-- The result as a function of the arguments: the plain layer of the aggregate of the hidden array. -/
def outOf (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x64, .f32⟩ : BufTy).Contents (Elt Ideal)) (x7 : (⟨S64, .f32⟩ : BufTy).Contents (Elt Ideal)) :
    (⟨S100000x64, .f32⟩ : BufTy).Contents (Elt Ideal) :=
  affine (R := 100000) (K := 128) (C := 64) (agg (F := Ideal) (hiddenOf x0 x1 x2 x3 x4) x1) (hiddenOf x0 x1 x2 x3 x4)
    (val_main_v14 (F := Ideal) x1) x5 x6 x7

/-- The reference computes `outOf` of its arguments. -/
theorem reference_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x64, .f32⟩ : BufTy).Contents (Elt Ideal)) (x7 : (⟨S64, .f32⟩ : BufTy).Contents (Elt Ideal)) :
    val_main_v53 (F := Ideal) x0 x1 x2 x3 x4 x5 x6 x7 = outOf x0 x1 x2 x3 x4 x5 x6 x7 := by
  rw [result_eq, agg_second, hidden_eq, agg_first]
  rfl

end Cert.ReferenceIdeal.Layers

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.LibColRow.lean ====
/-
  Columns and rows read at an index.

  A vector of length R recast as an R × 1 matrix reads, at (n, 0), the vector at n; recast as a 1 × C matrix it reads, at
  (0, q), the vector at q. An R × 1 column broadcast to R × C reads, at (p, q), the column at (p, 0); a 1 × C row broadcast
  to R × C reads the row at (0, q). These are the shapes in which a per-row scale and a per-column bias reach a dense
  layer; the sizes are generic.
-/
import Idealize.ShloMosaic.Lib.Pipeline.Value
import Idealize.ShloMosaic.Lib.ValueIdx

noncomputable section

namespace Cert.LibColRow

open Idealize.ShloMosaic Idealize.ShloMosaic.ValueIdx

/-! ## A column or a row broadcast to a matrix -/

/-- A column broadcast along the rows reads, at (p, q), the column at (p, 0). -/
theorem colBroadcastTo_apply {α : Type} {R C : Nat} (v : (⟨2, ![R, 1]⟩ : Shape).Idx → α)
    (h : (⟨2, ![R, 1]⟩ : Shape).Broadcasts ⟨2, ![R, C]⟩) (p : Fin R) (q : Fin C) :
    broadcastTo ⟨2, ![R, C]⟩ v h (ix2 p q) = v (ix2 p (0 : Fin 1)) :=
  broadcastTo_apply v h (ix2 p q) (ix2 p (0 : Fin 1)) (fun a => by
    match a with
    | ⟨0, _⟩ =>
      show p.val = if R = 1 then 0 else p.val
      split
      · have := p.isLt; omega
      · rfl
    | ⟨1, _⟩ => show (0 : Nat) = if (1 : Nat) = 1 then 0 else _; rw [if_pos rfl])

/-- A row broadcast down the rows reads, at (p, q), the row at (0, q). -/
theorem rowBroadcastTo_apply {α : Type} {R C : Nat} (v : (⟨2, ![1, C]⟩ : Shape).Idx → α)
    (h : (⟨2, ![1, C]⟩ : Shape).Broadcasts ⟨2, ![R, C]⟩) (p : Fin R) (q : Fin C) :
    broadcastTo ⟨2, ![R, C]⟩ v h (ix2 p q) = v (ix2 (0 : Fin 1) q) :=
  broadcastTo_apply v h (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)

/-! ## A vector recast as a column or as a row -/

/-- A vector recast as a one-column matrix reads, at (n, 0), the vector at n. -/
theorem colCast_apply {α : Type} {R : Nat} (v : (⟨1, ![R]⟩ : Shape).Idx → α)
    (h : (⟨1, ![R]⟩ : Shape).ShapeCasts ⟨2, ![R, 1]⟩) (n : Fin R) :
    shapeCast ⟨2, ![R, 1]⟩ v h (ix2 n (0 : Fin 1)) = v (ix1 n) :=
  shapeCast_apply v h (ix2 n (0 : Fin 1)) (ix1 n) (by
    rw [Shape.rowMajor_val_one, Shape.rowMajor_val_two]
    show n.val = n.val * 1 + (0 : Nat)
    omega)

/-- A vector recast as a one-row matrix reads, at (0, q), the vector at q. -/
theorem rowCast_apply {α : Type} {C : Nat} (v : (⟨1, ![C]⟩ : Shape).Idx → α)
    (h : (⟨1, ![C]⟩ : Shape).ShapeCasts ⟨2, ![1, C]⟩) (q : Fin C) :
    shapeCast ⟨2, ![1, C]⟩ v h (ix2 (0 : Fin 1) q) = v (ix1 q) :=
  shapeCast_apply v h (ix2 (0 : Fin 1) q) (ix1 q) (by
    rw [Shape.rowMajor_val_one, Shape.rowMajor_val_two]
    show q.val = (0 : Nat) * C + q.val
    omega)

end Cert.LibColRow

end
-- ==== Proof.KernelBlock.lean ====
/-
  What the kernel body computes on one block of rows, at an index.

  The body reads a block of aggregate rows, the matching block of the nodes' own rows, the matching block of the
  reciprocal-degree column, the two weight matrices and the bias row, and stores

      ( Σ_k (a(p, k) · dc(p, 0)) · wl(k, q)  +  Σ_k x(p, k) · wr(k, q) )  +  br(0, q)

  at (p, q) — clamped at 0 from below in the first layer. The changes of float format are the identity on the extended
  reals, each matrix product into the zero accumulator is the finite sum over the contracted axis, and the two
  broadcasts read the column at (p, 0) and the row at (0, q).
-/
import proofs.«122156_j28346784153651_1_alg».proof.Proof.Gen.KernelIdeal.Skeleton
import proofs.«122156_j28346784153651_1_alg».proof.Proof.LibPlainDot
import proofs.«122156_j28346784153651_1_alg».proof.Proof.LibColRow
import proofs.«122156_j28346784153651_1_alg».proof.Proof.SageSpec
import Idealize.ShloMosaic.Lib.Pipeline.Value
import Idealize.ShloMosaic.Lib.ValueIdx
import Idealize.ShloMosaic.PureOps.Ideal.Laws

noncomputable section

open scoped BigOperators

namespace Cert.KernelIdeal.Block

open Idealize.ShloMosaic Idealize.ShloMosaic.ValueIdx Cert.KernelIdeal Cert.KernelIdeal.Gen Cert.Sage Cert.LibColRow

/-- The first layer's stored block at (p, q). -/
theorem pay0_apply (a : Vec Ideal S4000x128 .f32) (dc : Vec Ideal S4000x1 .f32) (x : Vec Ideal S4000x128 .f32)
    (wl wr : Vec Ideal S128x128 .f32) (br : Vec Ideal S1x128 .f32) (p : Fin 4000) (q : Fin 128) :
    k0_pay1 (F := Ideal) a dc x wl wr br (ix2 p q)
      = max (((∑ k : Fin 128, ((a (ix2 p k) : EReal) * (dc (ix2 p (0 : Fin 1)) : EReal)) * (wl (ix2 k q) : EReal))
          + ∑ k : Fin 128, (x (ix2 p k) : EReal) * (wr (ix2 k q) : EReal)) + (br (ix2 (0 : Fin 1) q) : EReal)) (0 : EReal) := by
  unfold k0_pay1
  simp only [shapeCast_self, matmul]
  rw [maximumf_apply, addf_apply, addf_apply, broadcast_apply]
  have h1 : FloatOps.matmul (F := Ideal) dot_S4000x128_S128x128_S4000x128_1_0_0_1_n_n none
      (truncf (F := Ideal) (φ := .f32) FTy.bf16 (mulf (F := Ideal) (φ := .f32) a (broadcastTo S4000x128 dc broadcasts_S4000x1_S4000x128)) bitsLt_bf16_f32)
      (truncf (F := Ideal) (φ := .f32) FTy.bf16 wl bitsLt_bf16_f32) (constant (F := Ideal) S4000x128 FTy.f32 0x00000000#32) (ix2 p q)
      = ∑ k : Fin 128, ((a (ix2 p k) : EReal) * (dc (ix2 p (0 : Fin 1)) : EReal)) * (wl (ix2 k q) : EReal) := by
    refine (LibPlainDot.matmul_plain_zero (M := 4000) (K := 128) (N := 128) none _ _ (ix2 p q)).trans ?_
    refine Finset.sum_congr rfl fun k _ => ?_
    show (a (ix2 p k) : EReal) * broadcastTo S4000x128 dc broadcasts_S4000x1_S4000x128 (ix2 p k) * (wl (ix2 k q) : EReal) = _
    rw [colBroadcastTo_apply]
  have h2 : FloatOps.matmul (F := Ideal) dot_S4000x128_S128x128_S4000x128_1_0_0_1_n_n none (truncf (F := Ideal) (φ := .f32) FTy.bf16 x bitsLt_bf16_f32)
      (truncf (F := Ideal) (φ := .f32) FTy.bf16 wr bitsLt_bf16_f32) (constant (F := Ideal) S4000x128 FTy.f32 0x00000000#32) (ix2 p q)
      = ∑ k : Fin 128, (x (ix2 p k) : EReal) * (wr (ix2 k q) : EReal) :=
    LibPlainDot.matmul_plain_zero (M := 4000) (K := 128) (N := 128) none _ _ (ix2 p q)
  rw [h1, h2, rowBroadcastTo_apply, Ideal.ofBits_def, Ideal.ofBits_zero_f32]

/-- The second layer's stored block at (p, q): the same expression, 64 channels wide and not clamped. -/
theorem pay1_apply (a : Vec Ideal S4000x128 .f32) (dc : Vec Ideal S4000x1 .f32) (x : Vec Ideal S4000x128 .f32)
    (wl wr : Vec Ideal S128x64 .f32) (br : Vec Ideal S1x64 .f32) (p : Fin 4000) (q : Fin 64) :
    k1_pay1 (F := Ideal) a dc x wl wr br (ix2 p q)
      = ((∑ k : Fin 128, ((a (ix2 p k) : EReal) * (dc (ix2 p (0 : Fin 1)) : EReal)) * (wl (ix2 k q) : EReal))
          + ∑ k : Fin 128, (x (ix2 p k) : EReal) * (wr (ix2 k q) : EReal)) + (br (ix2 (0 : Fin 1) q) : EReal) := by
  unfold k1_pay1
  simp only [shapeCast_self, matmul]
  rw [addf_apply, addf_apply]
  have h1 : FloatOps.matmul (F := Ideal) dot_S4000x128_S128x64_S4000x64_1_0_0_1_n_n none
      (truncf (F := Ideal) (φ := .f32) FTy.bf16 (mulf (F := Ideal) (φ := .f32) a (broadcastTo S4000x128 dc broadcasts_S4000x1_S4000x128)) bitsLt_bf16_f32)
      (truncf (F := Ideal) (φ := .f32) FTy.bf16 wl bitsLt_bf16_f32) (constant (F := Ideal) S4000x64 FTy.f32 0x00000000#32) (ix2 p q)
      = ∑ k : Fin 128, ((a (ix2 p k) : EReal) * (dc (ix2 p (0 : Fin 1)) : EReal)) * (wl (ix2 k q) : EReal) := by
    refine (LibPlainDot.matmul_plain_zero (M := 4000) (K := 128) (N := 64) none _ _ (ix2 p q)).trans ?_
    refine Finset.sum_congr rfl fun k _ => ?_
    show (a (ix2 p k) : EReal) * broadcastTo S4000x128 dc broadcasts_S4000x1_S4000x128 (ix2 p k) * (wl (ix2 k q) : EReal) = _
    rw [colBroadcastTo_apply]
  have h2 : FloatOps.matmul (F := Ideal) dot_S4000x128_S128x64_S4000x64_1_0_0_1_n_n none (truncf (F := Ideal) (φ := .f32) FTy.bf16 x bitsLt_bf16_f32)
      (truncf (F := Ideal) (φ := .f32) FTy.bf16 wr bitsLt_bf16_f32) (constant (F := Ideal) S4000x64 FTy.f32 0x00000000#32) (ix2 p q)
      = ∑ k : Fin 128, (x (ix2 p k) : EReal) * (wr (ix2 k q) : EReal) :=
    LibPlainDot.matmul_plain_zero (M := 4000) (K := 128) (N := 64) none _ _ (ix2 p q)
  rw [h1, h2, rowBroadcastTo_apply]

/-! ## A block's row against the whole arrays' row -/

/-- If row p of the blocks the body reads is row r of the whole arrays (the reciprocal degree and the bias being vectors
    read at r and at the column), the first layer's stored value at (p, q) is the clamped layer of the whole arrays at (r, q). -/
theorem point0 (a x : Vec Ideal S4000x128 .f32) (dc : Vec Ideal S4000x1 .f32) (wl wr : Vec Ideal S128x128 .f32) (br : Vec Ideal S1x128 .f32)
    (A X : Vec Ideal S100000x128 .f32) (D : Vec Ideal S100000 .f32) (Wl Wr : Vec Ideal S128x128 .f32) (B : Vec Ideal S128 .f32)
    (r : Fin 100000) (p : Fin 4000) (q : Fin 128)
    (ha : ∀ k : Fin 128, a (ix2 p k) = A (ix2 r k)) (hx : ∀ k : Fin 128, x (ix2 p k) = X (ix2 r k))
    (hd : dc (ix2 p (0 : Fin 1)) = D (ix1 r))
    (hwl : ∀ k : Fin 128, wl (ix2 k q) = Wl (ix2 k q)) (hwr : ∀ k : Fin 128, wr (ix2 k q) = Wr (ix2 k q))
    (hb : br (ix2 (0 : Fin 1) q) = B (ix1 q)) :
    k0_pay1 (F := Ideal) a dc x wl wr br (ix2 p q)
      = affineRelu (R := 100000) (K := 128) (C := 128) A X D Wl Wr B (ix2 r q) := by
  rw [pay0_apply, affineRelu_apply, hd, hb]
  rw [Finset.sum_congr rfl (fun k _ => by rw [ha k, hwl k] :
        ∀ k ∈ Finset.univ, ((a (ix2 p k) : EReal) * (D (ix1 r) : EReal)) * (wl (ix2 k q) : EReal)
          = ((A (ix2 r k) : EReal) * (D (ix1 r) : EReal)) * (Wl (ix2 k q) : EReal)),
    Finset.sum_congr rfl (fun k _ => by rw [hx k, hwr k] :
        ∀ k ∈ Finset.univ, (x (ix2 p k) : EReal) * (wr (ix2 k q) : EReal) = (X (ix2 r k) : EReal) * (Wr (ix2 k q) : EReal))]

/-- The same for the second layer, 64 channels wide and not clamped. -/
theorem point1 (a x : Vec Ideal S4000x128 .f32) (dc : Vec Ideal S4000x1 .f32) (wl wr : Vec Ideal S128x64 .f32) (br : Vec Ideal S1x64 .f32)
    (A X : Vec Ideal S100000x128 .f32) (D : Vec Ideal S100000 .f32) (Wl Wr : Vec Ideal S128x64 .f32) (B : Vec Ideal S64 .f32)
    (r : Fin 100000) (p : Fin 4000) (q : Fin 64)
    (ha : ∀ k : Fin 128, a (ix2 p k) = A (ix2 r k)) (hx : ∀ k : Fin 128, x (ix2 p k) = X (ix2 r k))
    (hd : dc (ix2 p (0 : Fin 1)) = D (ix1 r))
    (hwl : ∀ k : Fin 128, wl (ix2 k q) = Wl (ix2 k q)) (hwr : ∀ k : Fin 128, wr (ix2 k q) = Wr (ix2 k q))
    (hb : br (ix2 (0 : Fin 1) q) = B (ix1 q)) :
    k1_pay1 (F := Ideal) a dc x wl wr br (ix2 p q)
      = affine (R := 100000) (K := 128) (C := 64) A X D Wl Wr B (ix2 r q) := by
  rw [pay1_apply, affine_apply, hd, hb]
  rw [Finset.sum_congr rfl (fun k _ => by rw [ha k, hwl k] :
        ∀ k ∈ Finset.univ, ((a (ix2 p k) : EReal) * (D (ix1 r) : EReal)) * (wl (ix2 k q) : EReal)
          = ((A (ix2 r k) : EReal) * (D (ix1 r) : EReal)) * (Wl (ix2 k q) : EReal)),
    Finset.sum_congr rfl (fun k _ => by rw [hx k, hwr k] :
        ∀ k ∈ Finset.univ, (x (ix2 p k) : EReal) * (wr (ix2 k q) : EReal) = (X (ix2 r k) : EReal) * (Wr (ix2 k q) : EReal))]

end Cert.KernelIdeal.Block

end
-- ==== Proof.KernelRegion0.lean ====
/-
  The first kernel region's output array, as one function of the arrays the region finds.

  The region runs the body on 25 blocks of 4000 rows. Point t reads rows t·4000 … t·4000 + 3999 of the aggregate, of the
  node features and of the reciprocal-degree column, the two weight matrices and the bias row whole, and writes back rows
  t·4000 … t·4000 + 3999 of the output. A row's result depends on that row alone, so what point t writes back is block t
  of the clamped layer of the whole arrays; the 25 blocks cover every row, so the output array ends as that layer.
-/
import proofs.«122156_j28346784153651_1_alg».proof.Proof.Gen.KernelIdeal.Frame
import proofs.«122156_j28346784153651_1_alg».proof.Proof.KernelBlock
import proofs.«122156_j28346784153651_1_alg».proof.Proof.SageSpec

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

/-! ## The arrays the region finds, each at its literal type -/

abbrev aggArr (c : Dev nD) : Vec Ideal S100000x128 .f32 := V c main_v25
abbrev featArr (c : Dev nD) : Vec Ideal S100000x128 .f32 := V c main_arg0
abbrev degCol (c : Dev nD) : Vec Ideal S100000x1 .f32 := V c main_v15
abbrev wlArr (c : Dev nD) : Vec Ideal S128x128 .f32 := V c main_arg2
abbrev wrArr (c : Dev nD) : Vec Ideal S128x128 .f32 := V c main_arg3
abbrev biasRow (c : Dev nD) : Vec Ideal S1x128 .f32 := V c main_v26

theorem hz : (![0, 0] : Fin 2 → Nat) = fun _ => 0 := funext fun a => by fin_cases a <;> rfl

/-- The printed index maps over the grid: the three row-blocked inputs and the output are at block row t, the weights
    and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 25 := N_0 ▸ t.isLt

/-- Row p of block t is row t·4000 + p of the array. -/
def row (t : Fin cfg0.N) (p : Fin 4000) : Fin 100000 := ⟨t.val * 4000 + p.val, by have := t_lt t; have := p.isLt; omega⟩

/-! ## The blocks the body reads, at coordinates -/

theorem agg_blk (c : Dev nD) (t : Fin cfg0.N) (p : Fin 4000) (k : Fin 128) :
    iblk0 V c 0 t (ix2 p k) = aggArr V c (ix2 (row t p) k) := by
  show aggArr V c (((cfg0.win 0).blk t).view.emb (ix2 p k)) = _
  refine congrArg (aggArr V c) (funext fun a => Fin.ext ?_)
  obtain ⟨e0, e1, -⟩ := idx_facts t
  match a with
  | ⟨0, _⟩ => show win0_0.index t (0 : Fin 2) * 4000 + 1 * p.val = t.val * 4000 + p.val; rw [e0]; omega
  | ⟨1, _⟩ => show win0_0.index t (1 : Fin 2) * 128 + 1 * k.val = k.val; rw [e1]; omega

theorem feat_blk (c : Dev nD) (t : Fin cfg0.N) (p : Fin 4000) (k : Fin 128) :
    iblk0 V c 1 t (ix2 p k) = featArr V c (ix2 (row t p) k) := by
  show featArr V c (((cfg0.win 1).blk t).view.emb (ix2 p k)) = _
  refine congrArg (featArr V c) (funext fun a => Fin.ext ?_)
  obtain ⟨-, -, e0, e1, -⟩ := idx_facts t
  match a with
  | ⟨0, _⟩ => show win0_1.index t (0 : Fin 2) * 4000 + 1 * p.val = t.val * 4000 + p.val; rw [e0]; omega
  | ⟨1, _⟩ => show win0_1.index t (1 : Fin 2) * 128 + 1 * k.val = k.val; rw [e1]; omega

theorem deg_blk (c : Dev nD) (t : Fin cfg0.N) (p : Fin 4000) :
    iblk0 V c 2 t (ix2 p (0 : Fin 1)) = degCol V c (ix2 (row t p) (0 : Fin 1)) := by
  show degCol V c (((cfg0.win 2).blk t).view.emb (ix2 p (0 : Fin 1))) = _
  refine congrArg (degCol V c) (funext fun a => Fin.ext ?_)
  obtain ⟨-, -, -, -, e0, e1, -⟩ := idx_facts t
  match a with
  | ⟨0, _⟩ => show win0_2.index t (0 : Fin 2) * 4000 + 1 * p.val = t.val * 4000 + p.val; rw [e0]; omega
  | ⟨1, _⟩ => show win0_2.index t (1 : Fin 2) * 1 + 1 * (0 : Nat) = 0; rw [e1]

theorem wl_blk (c : Dev nD) (t : Fin cfg0.N) (k q : Fin 128) :
    iblk0 V c 3 t (ix2 k q) = wlArr V c (ix2 k q) := by
  show wlArr V c (((cfg0.win 3).blk t).view.emb (ix2 k q)) = _
  refine congrArg (wlArr V c) (funext fun a => Fin.ext ?_)
  obtain ⟨-, -, -, -, -, -, e0, e1, -⟩ := idx_facts t
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem wr_blk (c : Dev nD) (t : Fin cfg0.N) (k q : Fin 128) :
    iblk0 V c 4 t (ix2 k q) = wrArr V c (ix2 k q) := by
  show wrArr V c (((cfg0.win 4).blk t).view.emb (ix2 k q)) = _
  refine congrArg (wrArr V c) (funext fun a => Fin.ext ?_)
  obtain ⟨-, -, -, -, -, -, -, -, e0, e1, -⟩ := idx_facts t
  match a with
  | ⟨0, _⟩ => show win0_4.index t (0 : Fin 2) * 128 + 1 * k.val = k.val; rw [e0]; omega
  | ⟨1, _⟩ => show win0_4.index t (1 : Fin 2) * 128 + 1 * q.val = q.val; rw [e1]; omega

theorem bias_blk (c : Dev nD) (t : Fin cfg0.N) (q : Fin 128) :
    iblk0 V c 5 t (ix2 (0 : Fin 1) q) = biasRow V c (ix2 (0 : Fin 1) q) := by
  show biasRow V c (((cfg0.win 5).blk t).view.emb (ix2 (0 : Fin 1) q)) = _
  refine congrArg (biasRow V c) (funext fun a => Fin.ext ?_)
  obtain ⟨-, -, -, -, -, -, -, -, -, -, e0, e1, -⟩ := idx_facts t
  match a with
  | ⟨0, _⟩ => show win0_5.index t (0 : Fin 2) * 1 + 1 * (0 : Nat) = 0; rw [e0]
  | ⟨1, _⟩ => show win0_5.index t (1 : Fin 2) * 128 + 1 * q.val = q.val; rw [e1]; omega

theorem out_emb (t : Fin cfg0.N) (p : Fin 4000) (q : Fin 128) :
    ((cfg0.win 6).blk t).view.emb (ix2 p q) = ix2 (row t p) q := by
  refine funext fun a => Fin.ext ?_
  obtain ⟨-, -, -, -, -, -, -, -, -, -, -, -, e0, e1⟩ := idx_facts t
  match a with
  | ⟨0, _⟩ => show win0_6.index t (0 : Fin 2) * 4000 + 1 * p.val = t.val * 4000 + p.val; rw [e0]; omega
  | ⟨1, _⟩ => show win0_6.index t (1 : Fin 2) * 128 + 1 * q.val = q.val; rw [e1]; omega

/-! ## What a point writes back, the cover, the array -/

/-- The body's result at row p of block t is the layer at row t·4000 + p of the whole arrays, the reciprocal degree and
    the bias being a vector recast as a column and as a row. -/
theorem point_eq (c : Dev nD) (D : Vec Ideal S100000 .f32) (B : Vec Ideal S128 .f32)
    (hD : degCol V c = shapeCast S100000x1 D shapeCasts_S100000_S100000x1)
    (hB : biasRow V c = shapeCast S1x128 B shapeCasts_S128_S1x128) (t : Fin cfg0.N) (p : Fin 4000) (q : Fin 128) :
    k0_pay1 (F := Ideal) (iblk0 V c 0 t) (iblk0 V c 2 t) (iblk0 V c 1 t) (iblk0 V c 3 t) (iblk0 V c 4 t) (iblk0 V c 5 t) (ix2 p q)
      = affineRelu (R := 100000) (K := 128) (C := 128) (aggArr V c) (featArr V c) D (wlArr V c) (wrArr V c) B (ix2 (row t p) q) :=
  Block.point0 (iblk0 V c 0 t) (iblk0 V c 1 t) (iblk0 V c 2 t) (iblk0 V c 3 t) (iblk0 V c 4 t) (iblk0 V c 5 t)
    (aggArr V c) (featArr V c) D (wlArr V c) (wrArr V c) B (row t p) p q
    (fun k => agg_blk V c t p k) (fun k => feat_blk V c t p k)
    ((deg_blk V c t p).trans ((congrFun hD _).trans (LibColRow.colCast_apply D shapeCasts_S100000_S100000x1 (row t p))))
    (fun k => wl_blk V c t k q) (fun k => wr_blk V c t k q)
    ((bias_blk V c t q).trans ((congrFun hB _).trans (LibColRow.rowCast_apply B shapeCasts_S128_S1x128 q)))

/-- WHAT POINT t WRITES BACK is block t of the layer of the arrays the region finds. -/
theorem flushed_eq (c : Dev nD) (D : Vec Ideal S100000 .f32) (B : Vec Ideal S128 .f32)
    (hD : degCol V c = shapeCast S100000x1 D shapeCasts_S100000_S100000x1)
    (hB : biasRow V c = shapeCast S1x128 B shapeCasts_S128_S1x128) (t : Fin cfg0.N) :
    (dat0 V c).flushed 6 t = ((cfg0.win 6).blk t).view.read (Elt Ideal)
      (affineRelu (R := 100000) (K := 128) (C := 128) (aggArr V c) (featArr V c) D (wlArr V c) (wrArr V c) B) := by
  show (cfg0.win 6).cut (grid0.coords t) ((dat0 V c).after 6 t) = _
  rw [after0_6]
  unfold out0_6
  rw [View.canon_unit_zero hz]
  simp only [View.ld_unit_zero (S := S4000x128) hz, View.ld_unit_zero (S := S4000x1) hz, View.ld_unit_zero (S := S128x128) hz,
    View.ld_unit_zero (S := S1x128) hz]
  funext j
  obtain ⟨p, q, rfl⟩ : ∃ (p : Fin 4000) (q : Fin 128), j = ix2 p q := ⟨j 0, j 1, eq_ix2 j⟩
  refine (point_eq V c D B hD hB t p q).trans ?_
  show _ = affineRelu (R := 100000) (K := 128) (C := 128) (aggArr V c) (featArr V c) D (wlArr V c) (wrArr V c) B (((cfg0.win 6).blk t).view.emb (ix2 p q))
  rw [out_emb]

/-- An index of the output array is in point t's block iff each coordinate is in the block's range on its axis. -/
theorem mem_blk (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v27).slice (win0_6.rect t)).set ↔ _
  rw [View.set_slice_whole, Rect.mem_set_unit]
  exact Iff.rfl

/-- Every row is in the block of the point numbered by its quotient by 4000. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 4000 < cfg0.N := by rw [show cfg0.N = 25 from N_0]; omega
  obtain ⟨-, -, -, -, -, -, -, -, -, -, -, -, e0, e1⟩ := idx_facts ⟨(i 0).val / 4000, hN⟩
  refine ⟨⟨(i 0).val / 4000, hN⟩, flush0_6 _, ?_⟩
  rw [mem_blk]
  intro a
  match a with
  | ⟨0, _⟩ =>
    show win0_6.index ⟨(i 0).val / 4000, hN⟩ (0 : Fin 2) * 4000 ≤ (i 0).val ∧ (i 0).val < win0_6.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win0_6.index ⟨(i 0).val / 4000, hN⟩ (1 : Fin 2) * 128 ≤ (i 1).val ∧ (i 1).val < win0_6.index ⟨(i 0).val / 4000, hN⟩ (1 : Fin 2) * 128 + 128
    rw [e1]; omega

/-- THE OUTPUT ARRAY after the region: the clamped layer of the arrays the region finds. -/
theorem final (c : Dev nD) (D : Vec Ideal S100000 .f32) (B : Vec Ideal S128 .f32)
    (hD : degCol V c = shapeCast S100000x1 D shapeCasts_S100000_S100000x1)
    (hB : biasRow V c = shapeCast S1x128 B shapeCasts_S128_S1x128) :
    (dat0 V c).arrAt 6 cfg0.N
      = affineRelu (R := 100000) (K := 128) (C := 128) (aggArr V c) (featArr V c) D (wlArr V c) (wrArr V c) B :=
  (dat0 V c).arrAt_eq_of_cover 6 _ (fun t _ => flushed_eq V c D B hD hB t) cover

end Cert.KernelIdeal.Region0

end
-- ==== Proof.KernelRegion1.lean ====
/-
  The second kernel region's output array, as one function of the arrays the region finds.

  As in the first region the body runs on 25 blocks of 4000 rows: point t reads rows t·4000 … t·4000 + 3999 of the second
  aggregate, of the hidden array and of the reciprocal-degree column, the two 128 × 64 weight matrices and the bias row
  whole, and writes back rows t·4000 … t·4000 + 3999 of the 64-channel output. A row's result depends on that row alone,
  so what point t writes back is block t of the (unclamped) layer of the whole arrays, and the 25 blocks cover every row.
-/
import proofs.«122156_j28346784153651_1_alg».proof.Proof.Gen.KernelIdeal.Frame
import proofs.«122156_j28346784153651_1_alg».proof.Proof.KernelBlock
import proofs.«122156_j28346784153651_1_alg».proof.Proof.SageSpec

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

/-! ## The arrays the region finds, each at its literal type -/

abbrev aggArr (c : Dev nD) : Vec Ideal S100000x128 .f32 := V c main_v37
abbrev hidArr (c : Dev nD) : Vec Ideal S100000x128 .f32 := V c main_v27
abbrev degCol (c : Dev nD) : Vec Ideal S100000x1 .f32 := V c main_v15
abbrev wlArr (c : Dev nD) : Vec Ideal S128x64 .f32 := V c main_arg5
abbrev wrArr (c : Dev nD) : Vec Ideal S128x64 .f32 := V c main_arg6
abbrev biasRow (c : Dev nD) : Vec Ideal S1x64 .f32 := V c main_v38

theorem hz : (![0, 0] : Fin 2 → Nat) = fun _ => 0 := funext fun a => by fin_cases a <;> rfl

/-- The printed index maps over the grid: the three row-blocked inputs and the output are at block row t, the weights
    and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 25 := N_1 ▸ t.isLt

/-- Row p of block t is row t·4000 + p of the array. -/
def row (t : Fin cfg1.N) (p : Fin 4000) : Fin 100000 := ⟨t.val * 4000 + p.val, by have := t_lt t; have := p.isLt; omega⟩

/-! ## The blocks the body reads, at coordinates -/

theorem agg_blk (c : Dev nD) (t : Fin cfg1.N) (p : Fin 4000) (k : Fin 128) :
    iblk1 V c 0 t (ix2 p k) = aggArr V c (ix2 (row t p) k) := by
  show aggArr V c (((cfg1.win 0).blk t).view.emb (ix2 p k)) = _
  refine congrArg (aggArr V c) (funext fun a => Fin.ext ?_)
  obtain ⟨e0, e1, -⟩ := idx_facts t
  match a with
  | ⟨0, _⟩ => show win1_0.index t (0 : Fin 2) * 4000 + 1 * p.val = t.val * 4000 + p.val; rw [e0]; omega
  | ⟨1, _⟩ => show win1_0.index t (1 : Fin 2) * 128 + 1 * k.val = k.val; rw [e1]; omega

theorem hid_blk (c : Dev nD) (t : Fin cfg1.N) (p : Fin 4000) (k : Fin 128) :
    iblk1 V c 1 t (ix2 p k) = hidArr V c (ix2 (row t p) k) := by
  show hidArr V c (((cfg1.win 1).blk t).view.emb (ix2 p k)) = _
  refine congrArg (hidArr V c) (funext fun a => Fin.ext ?_)
  obtain ⟨-, -, e0, e1, -⟩ := idx_facts t
  match a with
  | ⟨0, _⟩ => show win1_1.index t (0 : Fin 2) * 4000 + 1 * p.val = t.val * 4000 + p.val; rw [e0]; omega
  | ⟨1, _⟩ => show win1_1.index t (1 : Fin 2) * 128 + 1 * k.val = k.val; rw [e1]; omega

theorem deg_blk (c : Dev nD) (t : Fin cfg1.N) (p : Fin 4000) :
    iblk1 V c 2 t (ix2 p (0 : Fin 1)) = degCol V c (ix2 (row t p) (0 : Fin 1)) := by
  show degCol V c (((cfg1.win 2).blk t).view.emb (ix2 p (0 : Fin 1))) = _
  refine congrArg (degCol V c) (funext fun a => Fin.ext ?_)
  obtain ⟨-, -, -, -, e0, e1, -⟩ := idx_facts t
  match a with
  | ⟨0, _⟩ => show win1_2.index t (0 : Fin 2) * 4000 + 1 * p.val = t.val * 4000 + p.val; rw [e0]; omega
  | ⟨1, _⟩ => show win1_2.index t (1 : Fin 2) * 1 + 1 * (0 : Nat) = 0; rw [e1]

theorem wl_blk (c : Dev nD) (t : Fin cfg1.N) (k : Fin 128) (q : Fin 64) :
    iblk1 V c 3 t (ix2 k q) = wlArr V c (ix2 k q) := by
  show wlArr V c (((cfg1.win 3).blk t).view.emb (ix2 k q)) = _
  refine congrArg (wlArr V c) (funext fun a => Fin.ext ?_)
  obtain ⟨-, -, -, -, -, -, e0, e1, -⟩ := idx_facts t
  match a with
  | ⟨0, _⟩ => show win1_3.index t (0 : Fin 2) * 128 + 1 * k.val = k.val; rw [e0]; omega
  | ⟨1, _⟩ => show win1_3.index t (1 : Fin 2) * 64 + 1 * q.val = q.val; rw [e1]; omega

theorem wr_blk (c : Dev nD) (t : Fin cfg1.N) (k : Fin 128) (q : Fin 64) :
    iblk1 V c 4 t (ix2 k q) = wrArr V c (ix2 k q) := by
  show wrArr V c (((cfg1.win 4).blk t).view.emb (ix2 k q)) = _
  refine congrArg (wrArr V c) (funext fun a => Fin.ext ?_)
  obtain ⟨-, -, -, -, -, -, -, -, e0, e1, -⟩ := idx_facts t
  match a with
  | ⟨0, _⟩ => show win1_4.index t (0 : Fin 2) * 128 + 1 * k.val = k.val; rw [e0]; omega
  | ⟨1, _⟩ => show win1_4.index t (1 : Fin 2) * 64 + 1 * q.val = q.val; rw [e1]; omega

theorem bias_blk (c : Dev nD) (t : Fin cfg1.N) (q : Fin 64) :
    iblk1 V c 5 t (ix2 (0 : Fin 1) q) = biasRow V c (ix2 (0 : Fin 1) q) := by
  show biasRow V c (((cfg1.win 5).blk t).view.emb (ix2 (0 : Fin 1) q)) = _
  refine congrArg (biasRow V c) (funext fun a => Fin.ext ?_)
  obtain ⟨-, -, -, -, -, -, -, -, -, -, e0, e1, -⟩ := idx_facts t
  match a with
  | ⟨0, _⟩ => show win1_5.index t (0 : Fin 2) * 1 + 1 * (0 : Nat) = 0; rw [e0]
  | ⟨1, _⟩ => show win1_5.index t (1 : Fin 2) * 64 + 1 * q.val = q.val; rw [e1]; omega

theorem out_emb (t : Fin cfg1.N) (p : Fin 4000) (q : Fin 64) :
    ((cfg1.win 6).blk t).view.emb (ix2 p q) = ix2 (row t p) q := by
  refine funext fun a => Fin.ext ?_
  obtain ⟨-, -, -, -, -, -, -, -, -, -, -, -, e0, e1⟩ := idx_facts t
  match a with
  | ⟨0, _⟩ => show win1_6.index t (0 : Fin 2) * 4000 + 1 * p.val = t.val * 4000 + p.val; rw [e0]; omega
  | ⟨1, _⟩ => show win1_6.index t (1 : Fin 2) * 64 + 1 * q.val = q.val; rw [e1]; omega

/-! ## What a point writes back, the cover, the array -/

/-- The body's result at row p of block t is the layer at row t·4000 + p of the whole arrays, the reciprocal degree and
    the bias being a vector recast as a column and as a row. -/
theorem point_eq (c : Dev nD) (D : Vec Ideal S100000 .f32) (B : Vec Ideal S64 .f32)
    (hD : degCol V c = shapeCast S100000x1 D shapeCasts_S100000_S100000x1)
    (hB : biasRow V c = shapeCast S1x64 B shapeCasts_S64_S1x64) (t : Fin cfg1.N) (p : Fin 4000) (q : Fin 64) :
    k1_pay1 (F := Ideal) (iblk1 V c 0 t) (iblk1 V c 2 t) (iblk1 V c 1 t) (iblk1 V c 3 t) (iblk1 V c 4 t) (iblk1 V c 5 t) (ix2 p q)
      = affine (R := 100000) (K := 128) (C := 64) (aggArr V c) (hidArr V c) D (wlArr V c) (wrArr V c) B (ix2 (row t p) q) :=
  Block.point1 (iblk1 V c 0 t) (iblk1 V c 1 t) (iblk1 V c 2 t) (iblk1 V c 3 t) (iblk1 V c 4 t) (iblk1 V c 5 t)
    (aggArr V c) (hidArr V c) D (wlArr V c) (wrArr V c) B (row t p) p q
    (fun k => agg_blk V c t p k) (fun k => hid_blk V c t p k)
    ((deg_blk V c t p).trans ((congrFun hD _).trans (LibColRow.colCast_apply D shapeCasts_S100000_S100000x1 (row t p))))
    (fun k => wl_blk V c t k q) (fun k => wr_blk V c t k q)
    ((bias_blk V c t q).trans ((congrFun hB _).trans (LibColRow.rowCast_apply B shapeCasts_S64_S1x64 q)))

/-- WHAT POINT t WRITES BACK is block t of the layer of the arrays the region finds. -/
theorem flushed_eq (c : Dev nD) (D : Vec Ideal S100000 .f32) (B : Vec Ideal S64 .f32)
    (hD : degCol V c = shapeCast S100000x1 D shapeCasts_S100000_S100000x1)
    (hB : biasRow V c = shapeCast S1x64 B shapeCasts_S64_S1x64) (t : Fin cfg1.N) :
    (dat1 V c).flushed 6 t = ((cfg1.win 6).blk t).view.read (Elt Ideal)
      (affine (R := 100000) (K := 128) (C := 64) (aggArr V c) (hidArr V c) D (wlArr V c) (wrArr V c) B) := by
  show (cfg1.win 6).cut (grid1.coords t) ((dat1 V c).after 6 t) = _
  rw [after1_6]
  unfold out1_6
  rw [View.canon_unit_zero hz]
  simp only [View.ld_unit_zero (S := S4000x128) hz, View.ld_unit_zero (S := S4000x1) hz, View.ld_unit_zero (S := S128x64) hz,
    View.ld_unit_zero (S := S1x64) hz]
  funext j
  obtain ⟨p, q, rfl⟩ : ∃ (p : Fin 4000) (q : Fin 64), j = ix2 p q := ⟨j 0, j 1, eq_ix2 j⟩
  refine (point_eq V c D B hD hB t p q).trans ?_
  show _ = affine (R := 100000) (K := 128) (C := 64) (aggArr V c) (hidArr V c) D (wlArr V c) (wrArr V c) B (((cfg1.win 6).blk t).view.emb (ix2 p q))
  rw [out_emb]

/-- An index of the output array is in point t's block iff each coordinate is in the block's range on its axis. -/
theorem mem_blk (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v39).slice (win1_6.rect t)).set ↔ _
  rw [View.set_slice_whole, Rect.mem_set_unit]
  exact Iff.rfl

/-- Every row is in the block of the point numbered by its quotient by 4000. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : (i 0).val / 4000 < cfg1.N := by rw [show cfg1.N = 25 from N_1]; omega
  obtain ⟨-, -, -, -, -, -, -, -, -, -, -, -, e0, e1⟩ := idx_facts ⟨(i 0).val / 4000, hN⟩
  refine ⟨⟨(i 0).val / 4000, hN⟩, flush1_6 _, ?_⟩
  rw [mem_blk]
  intro a
  match a with
  | ⟨0, _⟩ =>
    show win1_6.index ⟨(i 0).val / 4000, hN⟩ (0 : Fin 2) * 4000 ≤ (i 0).val ∧ (i 0).val < win1_6.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, hN⟩ (1 : Fin 2) * 64 ≤ (i 1).val ∧ (i 1).val < win1_6.index ⟨(i 0).val / 4000, hN⟩ (1 : Fin 2) * 64 + 64
    rw [e1]; omega

/-- THE OUTPUT ARRAY after the region: the layer of the arrays the region finds. -/
theorem final (c : Dev nD) (D : Vec Ideal S100000 .f32) (B : Vec Ideal S64 .f32)
    (hD : degCol V c = shapeCast S100000x1 D shapeCasts_S100000_S100000x1)
    (hB : biasRow V c = shapeCast S1x64 B shapeCasts_S64_S1x64) :
    (dat1 V c).arrAt 6 cfg1.N
      = affine (R := 100000) (K := 128) (C := 64) (aggArr V c) (hidArr V c) D (wlArr V c) (wrArr V c) B :=
  (dat1 V c).arrAt_eq_of_cover 6 _ (fun t _ => flushed_eq V c D B hD hB t) cover

end Cert.KernelIdeal.Region1

end
-- ==== Proof.KernelHost.lean ====
/-
  What the kernel's program holds at each region's operands, read back through @main's host stretches.

  Before the first region the host computes, from the edge list alone, the reciprocal in-degree vector (recast as a
  column) and, from the edge list and the node features, the first aggregate; the bias is the argument recast as a row.
  These are the very operations the reference performs, so each is stated as the reference's own stage of the same
  arguments and closed by unfolding both sides. Between the regions the host aggregates the first region's output the
  same way. Read through both regions, the result array is the plain layer, over the second weights, of the aggregate of
  the hidden array, where the hidden array is the clamped layer, over the first weights, of the aggregate of the features.
-/
import proofs.«122156_j28346784153651_1_alg».proof.Proof.Gen.KernelIdeal.Frame
import proofs.«122156_j28346784153651_1_alg».proof.Proof.RefLayers
import proofs.«122156_j28346784153651_1_alg».proof.Proof.KernelRegion0
import proofs.«122156_j28346784153651_1_alg».proof.Proof.KernelRegion1
import Idealize.ShloMosaic.Lib.StableHlo.Run

set_option maxRecDepth 16384

noncomputable section

namespace Cert.KernelIdeal.Host

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.Sage
open Cert.ReferenceIdeal.ReadP (val_main_v1 val_main_v3 val_main_v14)
open Cert.ReferenceIdeal.Layers (agg)

variable (m : (ℓ : Loc nD τ sig) → Buf (Elt Ideal) ℓ) (ρ : Dev nD → PrngReg)

/-! ## The arguments, each at the type the reference's stages take -/

abbrev X0 (c : Dev nD) : (⟨Cert.ReferenceIdeal.S100000x128, .f32⟩ : BufTy).Contents (Elt Ideal) := m ((c : Thread nD τ).loc main_arg0)
abbrev X1 (c : Dev nD) : (⟨Cert.ReferenceIdeal.S2x1600000, .i32⟩ : BufTy).Contents (Elt Ideal) := m ((c : Thread nD τ).loc main_arg1)
abbrev X2 (c : Dev nD) : (⟨Cert.ReferenceIdeal.S128x128, .f32⟩ : BufTy).Contents (Elt Ideal) := m ((c : Thread nD τ).loc main_arg2)
abbrev X3 (c : Dev nD) : (⟨Cert.ReferenceIdeal.S128x128, .f32⟩ : BufTy).Contents (Elt Ideal) := m ((c : Thread nD τ).loc main_arg3)
abbrev X4 (c : Dev nD) : (⟨Cert.ReferenceIdeal.S128, .f32⟩ : BufTy).Contents (Elt Ideal) := m ((c : Thread nD τ).loc main_arg4)
abbrev X5 (c : Dev nD) : (⟨Cert.ReferenceIdeal.S128x64, .f32⟩ : BufTy).Contents (Elt Ideal) := m ((c : Thread nD τ).loc main_arg5)
abbrev X6 (c : Dev nD) : (⟨Cert.ReferenceIdeal.S128x64, .f32⟩ : BufTy).Contents (Elt Ideal) := m ((c : Thread nD τ).loc main_arg6)
abbrev X7 (c : Dev nD) : (⟨Cert.ReferenceIdeal.S64, .f32⟩ : BufTy).Contents (Elt Ideal) := m ((c : Thread nD τ).loc main_arg7)

/-! ## Region 0's operands at its entry -/

/-- The last stretch before region 0 recasts the reciprocal-degree vector as a column, whatever the buffers hold. -/
theorem stretch_deg (U : Valuation τ sig (Elt Ideal)) :
    StableHlo.after hostOps0_2 U (Proc.devRef .tc main_v15)
      = shapeCast S100000x1 (U (Proc.devRef .tc main_v14)) shapeCasts_S100000_S100000x1 := by
  after_results
  rfl

set_option maxHeartbeats 1000000 in
/-- The first two stretches compute the reciprocal-degree vector by the reference's own operations on the edge list:
    the same term at any float family, where the comparison is purely structural. -/
theorem deg_any {F : FTy → Type} [FloatOps F] (U : Valuation τ sig (Elt F)) :
    StableHlo.after hostOps0_1 (StableHlo.after hostOps0 U) (Proc.devRef .tc main_v14)
      = val_main_v14 (F := F) (U (Proc.devRef .tc main_arg1)) := by
  after_results
  rfl

/-- After the first two stretches the reciprocal-degree vector is the reference's. -/
theorem mid_deg (c : Dev nD) : W2 m ρ c (Proc.devRef .tc main_v14) = val_main_v14 (F := Ideal) (X1 m c) :=
  deg_any (W0 m ρ c)

/-- The reciprocal-degree column is the reference's reciprocal-degree vector, recast. -/
theorem entry0_deg (c : Dev nD) :
    W3 m ρ c (Proc.devRef .tc main_v15) = shapeCast S100000x1 (val_main_v14 (F := Ideal) (X1 m c)) shapeCasts_S100000_S100000x1 :=
  (stretch_deg (W2 m ρ c)).trans
    (congrArg (fun z => shapeCast S100000x1 z shapeCasts_S100000_S100000x1) (mid_deg m ρ c))

set_option maxHeartbeats 2000000 in
/-- The first aggregate is the reference's aggregate of the node features. -/
theorem entry0_agg (c : Dev nD) : W3 m ρ c (Proc.devRef .tc main_v25) = agg (F := Ideal) (X0 m c) (X1 m c) := by
  show StableHlo.after hostOps0_2 (StableHlo.after hostOps0_1 (StableHlo.after hostOps0 (W0 m ρ c))) (Proc.devRef .tc main_v25) = _
  after_results
  rfl

/-- The bias row is the bias argument, recast. -/
theorem entry0_bias (c : Dev nD) : W3 m ρ c (Proc.devRef .tc main_v26) = shapeCast S1x128 (X4 m c) shapeCasts_S128_S1x128 := by
  show StableHlo.after hostOps0_2 (StableHlo.after hostOps0_1 (StableHlo.after hostOps0 (W0 m ρ c))) (Proc.devRef .tc main_v26) = _
  after_results
  rfl

theorem entry0_arg0 (c : Dev nD) : W3 m ρ c (Proc.devRef .tc main_arg0) = X0 m c := by
  show StableHlo.after hostOps0_2 (StableHlo.after hostOps0_1 (StableHlo.after hostOps0 (W0 m ρ c))) (Proc.devRef .tc main_arg0) = _
  after_results
theorem entry0_arg2 (c : Dev nD) : W3 m ρ c (Proc.devRef .tc main_arg2) = X2 m c := by
  show StableHlo.after hostOps0_2 (StableHlo.after hostOps0_1 (StableHlo.after hostOps0 (W0 m ρ c))) (Proc.devRef .tc main_arg2) = _
  after_results
theorem entry0_arg3 (c : Dev nD) : W3 m ρ c (Proc.devRef .tc main_arg3) = X3 m c := by
  show StableHlo.after hostOps0_2 (StableHlo.after hostOps0_1 (StableHlo.after hostOps0 (W0 m ρ c))) (Proc.devRef .tc main_arg3) = _
  after_results

/-- The source and destination vectors of the edge list, still there after region 0. -/
theorem exit0_src (c : Dev nD) : W4 m ρ c (Proc.devRef .tc main_v1) = val_main_v1 (F := Ideal) (X1 m c) := by
  refine (W4_of_ne m ρ c main_v1 (by decide)).trans ?_
  show StableHlo.after hostOps0_2 (StableHlo.after hostOps0_1 (StableHlo.after hostOps0 (W0 m ρ c))) (Proc.devRef .tc main_v1) = _
  after_results
  rfl
theorem exit0_dst (c : Dev nD) : W4 m ρ c (Proc.devRef .tc main_v3) = val_main_v3 (F := Ideal) (X1 m c) := by
  refine (W4_of_ne m ρ c main_v3 (by decide)).trans ?_
  show StableHlo.after hostOps0_2 (StableHlo.after hostOps0_1 (StableHlo.after hostOps0 (W0 m ρ c))) (Proc.devRef .tc main_v3) = _
  after_results
  rfl
theorem exit0_arg5 (c : Dev nD) : W4 m ρ c (Proc.devRef .tc main_arg5) = X5 m c := by
  refine (W4_of_ne m ρ c main_arg5 (by decide)).trans ?_
  show StableHlo.after hostOps0_2 (StableHlo.after hostOps0_1 (StableHlo.after hostOps0 (W0 m ρ c))) (Proc.devRef .tc main_arg5) = _
  after_results
theorem exit0_arg6 (c : Dev nD) : W4 m ρ c (Proc.devRef .tc main_arg6) = X6 m c := by
  refine (W4_of_ne m ρ c main_arg6 (by decide)).trans ?_
  show StableHlo.after hostOps0_2 (StableHlo.after hostOps0_1 (StableHlo.after hostOps0 (W0 m ρ c))) (Proc.devRef .tc main_arg6) = _
  after_results
theorem exit0_arg7 (c : Dev nD) : W4 m ρ c (Proc.devRef .tc main_arg7) = X7 m c := by
  refine (W4_of_ne m ρ c main_arg7 (by decide)).trans ?_
  show StableHlo.after hostOps0_2 (StableHlo.after hostOps0_1 (StableHlo.after hostOps0 (W0 m ρ c))) (Proc.devRef .tc main_arg7) = _
  after_results
/-- The reciprocal-degree column is an input of region 0, which leaves it as it found it. -/
theorem exit0_deg (c : Dev nD) :
    W4 m ρ c (Proc.devRef .tc main_v15) = shapeCast S100000x1 (val_main_v14 (F := Ideal) (X1 m c)) shapeCasts_S100000_S100000x1 :=
  (W4_arr m ρ c 2).trans (((dat0 (V3 m ρ) c).arrAt_in 2 rfl _).trans ((A_eq0 (V3 m ρ) c 2).trans (entry0_deg m ρ c)))

/-! ## The hidden array: what region 0 leaves in its output -/

/-- Region 0's output is the clamped layer of the aggregate of the node features: the reference's hidden array. -/
theorem exit0_hidden (c : Dev nD) :
    W4 m ρ c (Proc.devRef .tc main_v27) = Cert.ReferenceIdeal.Layers.hiddenOf (X0 m c) (X1 m c) (X2 m c) (X3 m c) (X4 m c) := by
  refine (W4_arr m ρ c 6).trans ?_
  refine (Region0.final (V3 m ρ) c (val_main_v14 (F := Ideal) (X1 m c)) (X4 m c) (entry0_deg m ρ c) (entry0_bias m ρ c)).trans ?_
  show affineRelu (R := 100000) (K := 128) (C := 128) (W3 m ρ c (Proc.devRef .tc main_v25)) (W3 m ρ c (Proc.devRef .tc main_arg0))
    (val_main_v14 (F := Ideal) (X1 m c)) (W3 m ρ c (Proc.devRef .tc main_arg2)) (W3 m ρ c (Proc.devRef .tc main_arg3)) (X4 m c) = _
  rw [entry0_agg, entry0_arg0, entry0_arg2, entry0_arg3]
  rfl

/-! ## Region 1's operands at its entry -/

/-- The second aggregate is the reference's aggregate of the hidden array. -/
theorem entry1_agg (c : Dev nD) :
    W5 m ρ c (Proc.devRef .tc main_v37)
      = agg (F := Ideal) (Cert.ReferenceIdeal.Layers.hiddenOf (X0 m c) (X1 m c) (X2 m c) (X3 m c) (X4 m c)) (X1 m c) := by
  show StableHlo.after hostOps1 (W4 m ρ c) (Proc.devRef .tc main_v37) = _
  after_results
  rw [exit0_src, exit0_dst, exit0_hidden]
  rfl

theorem entry1_hid (c : Dev nD) :
    W5 m ρ c (Proc.devRef .tc main_v27) = Cert.ReferenceIdeal.Layers.hiddenOf (X0 m c) (X1 m c) (X2 m c) (X3 m c) (X4 m c) := by
  show StableHlo.after hostOps1 (W4 m ρ c) (Proc.devRef .tc main_v27) = _
  after_results
  exact exit0_hidden m ρ c

theorem entry1_deg (c : Dev nD) :
    W5 m ρ c (Proc.devRef .tc main_v15) = shapeCast S100000x1 (val_main_v14 (F := Ideal) (X1 m c)) shapeCasts_S100000_S100000x1 := by
  show StableHlo.after hostOps1 (W4 m ρ c) (Proc.devRef .tc main_v15) = _
  after_results
  exact exit0_deg m ρ c

theorem entry1_bias (c : Dev nD) : W5 m ρ c (Proc.devRef .tc main_v38) = shapeCast S1x64 (X7 m c) shapeCasts_S64_S1x64 := by
  show StableHlo.after hostOps1 (W4 m ρ c) (Proc.devRef .tc main_v38) = _
  after_results
  rw [exit0_arg7]
  rfl

theorem entry1_arg5 (c : Dev nD) : W5 m ρ c (Proc.devRef .tc main_arg5) = X5 m c := by
  show StableHlo.after hostOps1 (W4 m ρ c) (Proc.devRef .tc main_arg5) = _
  after_results
  exact exit0_arg5 m ρ c
theorem entry1_arg6 (c : Dev nD) : W5 m ρ c (Proc.devRef .tc main_arg6) = X6 m c := by
  show StableHlo.after hostOps1 (W4 m ρ c) (Proc.devRef .tc main_arg6) = _
  after_results
  exact exit0_arg6 m ρ c

/-! ## The result -/

/-- The result array after the run is the reference's function of the arguments: the plain layer of the aggregate of the
    hidden array. -/
theorem result (c : Dev nD) :
    W6 m ρ c (Proc.devRef .tc main_v39)
      = Cert.ReferenceIdeal.Layers.outOf (X0 m c) (X1 m c) (X2 m c) (X3 m c) (X4 m c) (X5 m c) (X6 m c) (X7 m c) := by
  refine (W6_arr m ρ c 6).trans ?_
  refine (Region1.final (V5 m ρ) c (val_main_v14 (F := Ideal) (X1 m c)) (X7 m c) (entry1_deg m ρ c) (entry1_bias m ρ c)).trans ?_
  show affine (R := 100000) (K := 128) (C := 64) (W5 m ρ c (Proc.devRef .tc main_v37)) (W5 m ρ c (Proc.devRef .tc main_v27))
    (val_main_v14 (F := Ideal) (X1 m c)) (W5 m ρ c (Proc.devRef .tc main_arg5)) (W5 m ρ c (Proc.devRef .tc main_arg6)) (X7 m c) = _
  rw [entry1_agg, entry1_hid, entry1_arg5, entry1_arg6]
  rfl

end Cert.KernelIdeal.Host

end
-- ==== Proof.lean ====
/-
  A two-layer mean-aggregation graph network: the Pallas kernel against its jnp reference, over the extended reals.

  Both programs compute, for node p and channel q,

      h(p, q)   = max( (Σ_k (A(x)(p, k) · d(p)) · W1l(k, q) + Σ_k x(p, k) · W1r(k, q)) + b1(q), 0 )
      out(p, q) =      (Σ_k (A(h)(p, k) · d(p)) · W2l(k, q) + Σ_k h(p, k) · W2r(k, q)) + b2(q)

  where A(·) sums, into each destination node's row, the rows at the edges' source nodes, and d is the reciprocal
  in-degree (0 for an isolated node). A and d are computed on the host by the same operations in both programs and are
  carried as the reference's own stages, never opened. The kernel's program computes each dense layer in a Pallas
  region, 25 blocks of 4000 rows, with the operands cast to a narrower float format (the identity on the extended reals)
  and each matrix product taken into a zero accumulator; the reference computes it by two `dot_general`s. Both are the
  same finite sums in the same grouping, so the two results are equal index by index with no further law of arithmetic,
  and the precondition (finite inputs) is not used.

  The three frames: the kernel's two programs by their generated frame certificates, the reference's by its run with
  the result dropped. The idealization rewrote no operation, so `preserves` is trivial.
-/
import proofs.«122156_j28346784153651_1_alg».proof.Defs
import proofs.«122156_j28346784153651_1_alg».proof.Proof.Gen.Kernel
import proofs.«122156_j28346784153651_1_alg».proof.Proof.Gen.Kernel.Frame
import proofs.«122156_j28346784153651_1_alg».proof.Proof.Gen.KernelIdeal
import proofs.«122156_j28346784153651_1_alg».proof.Proof.Gen.KernelIdeal.Frame
import proofs.«122156_j28346784153651_1_alg».proof.Proof.Gen.ReferenceIdeal
import proofs.«122156_j28346784153651_1_alg».proof.Proof.Gen.Pre_finite_inputs
import proofs.«122156_j28346784153651_1_alg».proof.Proof.KernelRun
import proofs.«122156_j28346784153651_1_alg».proof.Proof.KernelHost
import proofs.«122156_j28346784153651_1_alg».proof.Proof.RefRunPatched
import proofs.«122156_j28346784153651_1_alg».proof.Proof.RefReadPatched
import proofs.«122156_j28346784153651_1_alg».proof.Proof.RefLayers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result array at the two composed layers of the (agreeing) arguments. -/
theorem algebraic : Cert.algebraic_KernelIdeal_ReferenceIdeal := by
  intro m ρ m' ρ' _ hagree
  refine ⟨fun c => Cert.ReferenceIdeal.Layers.outOf (Cert.KernelIdeal.Host.X0 m c) (Cert.KernelIdeal.Host.X1 m c)
      (Cert.KernelIdeal.Host.X2 m c) (Cert.KernelIdeal.Host.X3 m c) (Cert.KernelIdeal.Host.X4 m c) (Cert.KernelIdeal.Host.X5 m c)
      (Cert.KernelIdeal.Host.X6 m c) (Cert.KernelIdeal.Host.X7 m c), ?_, ?_⟩
  · exact (θ_run Cert.KernelIdeal.defs _ _).mono
      (fun r h c => ⟨(h c).1.trans (Cert.KernelIdeal.Host.result m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v53_eq, Cert.ReferenceIdeal.Layers.reference_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
